-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000x128 : Shape := ⟨2, ![50000, 128]⟩
abbrev S1600000x128 : Shape := ⟨2, ![1600000, 128]⟩
abbrev S2x1600000 : Shape := ⟨2, ![2, 1600000]⟩
abbrev S50000x1 : Shape := ⟨2, ![50000, 1]⟩
abbrev S3x128 : Shape := ⟨2, ![3, 128]⟩
abbrev S128 : Shape := ⟨1, ![128]⟩
abbrev S128x128 : Shape := ⟨2, ![128, 128]⟩
abbrev S1x128 : Shape := ⟨2, ![1, 128]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S1600000x128 : S_.BroadcastsInDim S1600000x128 (![] : Fin 0 → Fin S1600000x128.rank)
  reducesTo_S1600000x128_S_d0_1 : S1600000x128.ReducesTo [0, 1] S_
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_

variable [Facts]

def fn_part3 {F : FTy → Type} [FloatOps F] (main_arg13 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S128 .f32) (main_arg10 : FVec F S1x128 .f32) (main_arg11 : FVec F S128 .f32) (main_arg12 : FVec F S128x128 .f32) (main_arg13 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S1x128 .f32 := Host.absf main_arg10
  let main_cst_14 : FVec F S_ .f32 := constant S_ .f32 0x7F800000#32
  let main_v40 : FVec F S1x128 .f32 := broadcastInDim S1x128 ![] bcast_S_S1x128 main_cst_14
  let main_v41 : IVec S1x128 1 := cmpf .olt main_v39 main_v40
  let main_c_15 : IVec S_ 1 := constantI S_ 1 1#1
  let main_v42 : IVec S_ 1 := (fun x v => Host.reduce IntOp.andi x v reducesTo_S1x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg12
  let main_cst_18 : FVec F S_ .f32 := constant S_ .f32 0x7F800000#32
  let main_v50 : FVec F S128x128 .f32 := broadcastInDim S128x128 ![] bcast_S_S128x128 main_cst_18
  fn_part3 (F := F) main_arg13 main_v48 main_v49 main_v50

def fn_part1 {F : FTy → Type} [FloatOps F] (main_arg6 : FVec F S3x128 .f32) (main_arg7 : FVec F S128 .f32) (main_arg8 : FVec F S128x128 .f32) (main_arg9 : FVec F S128 .f32) (main_arg10 : FVec F S1x128 .f32) (main_arg11 : FVec F S128 .f32) (main_arg12 : FVec F S128x128 .f32) (main_arg13 : FVec F S128 .f32) (main_v13 : IVec S_ 1) (main_v16 : IVec S50000x3 1) : IVec S_ 1 :=
  let main_c_5 : IVec S_ 1 := constantI S_ 1 1#1
  let main_v17 : IVec S_ 1 := (fun x v => Host.reduce IntOp.andi x v reducesTo_S50000x3_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S50000x3 .f32) (main_arg1 : FVec F S50000x128 .f32) (main_arg2 : FVec F S1600000x128 .f32) (main_arg3 : IVec S2x1600000 32) (main_arg4 : FVec F S50000x3 .f32) (main_arg5 : IVec S50000x1 1) (main_arg6 : FVec F S3x128 .f32) (main_arg7 : FVec F S128 .f32) (main_arg8 : FVec F S128x128 .f32) (main_arg9 : FVec F S128 .f32) (main_arg10 : FVec F S1x128 .f32) (main_arg11 : FVec F S128 .f32) (main_arg12 : FVec F S128x128 .f32) (main_arg13 : FVec F S128 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S1600000x128 .f32 := Host.absf main_arg2
  let main_cst_2 : FVec F S_ .f32 := constant S_ .f32 0x7F800000#32
  let main_v10 : FVec F S1600000x128 .f32 := broadcastInDim S1600000x128 ![] bcast_S_S1600000x128 main_cst_2
  let main_v11 : IVec S1600000x128 1 := cmpf .olt main_v9 main_v10
  let main_c_3 : IVec S_ 1 := constantI S_ 1 1#1
  let main_v12 : IVec S_ 1 := (fun x v => Host.reduce IntOp.andi x v reducesTo_S1600000x128_S_d0_1 h_S_) main_v11 main_c_3
  let main_v13 : IVec S_ 1 := andi main_v8 main_v12
  let main_v14 : FVec F S50000x3 .f32 := Host.absf main_arg4
  let main_cst_4 : FVec F S_ .f32 := constant S_ .f32 0x7F800000#32
  let main_v15 : FVec F S50000x3 .f32 := broadcastInDim S50000x3 ![] bcast_S_S50000x3 main_cst_4
  let main_v16 : IVec S50000x3 1 := cmpf .olt main_v14 main_v15
  fn_part1 (F := F) main_arg6 main_arg7 main_arg8 main_arg9 main_arg10 main_arg11 main_arg12 main_arg13 main_v13 main_v16
-- ==== Kernel.lean ====
abbrev S50000x3 : Shape := ⟨2, ![50000, 3]⟩
abbrev S50000x128 : Shape := ⟨2, ![50000, 128]⟩
abbrev S1600000x128 : Shape := ⟨2, ![1600000, 128]⟩
abbrev S2x1600000 : Shape := ⟨2, ![2, 1600000]⟩
abbrev S50000x1 : Shape := ⟨2, ![50000, 1]⟩
abbrev S3x128 : Shape := ⟨2, ![3, 128]⟩
abbrev S128 : Shape := ⟨1, ![128]⟩
abbrev S128x128 : Shape := ⟨2, ![128, 128]⟩
abbrev S1x128 : Shape := ⟨2, ![1, 128]⟩
abbrev S5000x128 : Shape := ⟨2, ![5000, 128]⟩
abbrev S5000x3 : Shape := ⟨2, ![5000, 3]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x3 : Shape := ⟨2, ![1600000, 3]⟩
abbrev S5000x1 : Shape := ⟨2, ![5000, 1]⟩

abbrev nBuf : Space → Nat
  | .hbm => 50
  | .vmem => 20
  | .smem => 0
  | _ => 0

abbrev bufTy : (tb : Table) → Fin (tcTables nBuf tb) → BufTy
  | .hbm, ⟨0, _⟩ => ⟨S50000x3, .f32⟩
  | .hbm, ⟨1, _⟩ => ⟨S50000x128, .f32⟩
  | .hbm, ⟨2, _⟩ => ⟨S1600000x128, .f32⟩
  | .hbm, ⟨3, _⟩ => ⟨S2x1600000, .i32⟩
  | .hbm, ⟨4, _⟩ => ⟨S50000x3, .f32⟩
  | .hbm, ⟨5, _⟩ => ⟨S50000x1, .i1⟩
  | .hbm, ⟨6, _⟩ => ⟨S3x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S50000x3, .i1⟩
  | .hbm, ⟨15, _⟩ => ⟨S50000x3, .f32⟩
  | .hbm, ⟨16, _⟩ => ⟨S1x128, .f32⟩
  | .hbm, ⟨17, _⟩ => ⟨S1x128, .f32⟩
  | .hbm, ⟨18, _⟩ => ⟨S50000x128, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x3, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x3, .f32⟩
  | .hbm, ⟨41, _⟩ => ⟨S1600000x3, .f32⟩
  | .hbm, ⟨42, _⟩ => ⟨S1600000x3, .f32⟩
  | .hbm, ⟨43, _⟩ => ⟨S_, .f32⟩
  | .hbm, ⟨44, _⟩ => ⟨S1600000, .f32⟩
  | .hbm, ⟨45, _⟩ => ⟨S1600000x1, .f32⟩
  | .hbm, ⟨46, _⟩ => ⟨S1600000x1, .f32⟩
  | .hbm, ⟨47, _⟩ => ⟨S1x128, .f32⟩
  | .hbm, ⟨48, _⟩ => ⟨S1x128, .f32⟩
  | .hbm, ⟨49, _⟩ => ⟨S1600000x128, .f32⟩
  | .local _ .vmem, ⟨0, _⟩ => ⟨S5000x128, .f32⟩
  | .local _ .vmem, ⟨1, _⟩ => ⟨S5000x128, .f32⟩
  | .local _ .vmem, ⟨2, _⟩ => ⟨S5000x3, .f32⟩
  | .local _ .vmem, ⟨3, _⟩ => ⟨S5000x3, .f32⟩
  | .local _ .vmem, ⟨4, _⟩ => ⟨S3x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c_1 : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_call1_v2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![320], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S50000x1_S50000x3_0_1 : S50000x1.BroadcastsInDim S50000x3 (![0, 1] : Fin 2 → Fin S50000x3.rank)
  shapeCasts_S128_S1x128 : S128.ShapeCasts S1x128
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  dot_S5000x3_S3x128_S5000x128_1_0_0_1_n_n_wf : DotDims.WF S5000x3 S3x128 S5000x128 [1] [0] [0] [1] [] []
  dot_S5000x128_S128x128_S5000x128_1_0_0_1_n_n_wf : DotDims.WF S5000x128 S128x128 S5000x128 [1] [0] [0] [1] [] []
  gather_S50000x3_S1600000x1_S1600000x3_1_0_n_n_0_1_13_wf : GatherDims.WF S50000x3 S1600000x1 S1600000x3 [1] [0] [] [0] [] 1 ![1, 3]
  dot_S5000x1_S1x128_S5000x128_1_0_0_1_n_n_wf : DotDims.WF S5000x1 S1x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x3.size a ≤ S50000x3.size a
  hwx0_1 : ∀ i : grid0.Coords, EltTy.bits .f32 = 32 ∨ (Rect.block (s := S50000x3) S5000x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S1600000x128.size a
  hwx1_0 : ∀ i : grid1.Coords, EltTy.bits .f32 = 32 ∨ (Rect.block (s := S1600000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S1600000x1.size a
  hwx1_1 : ∀ i : grid1.Coords, EltTy.bits .f32 = 32 ∨ (Rect.block (s := S1600000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S1600000x128.size a
  hwx1_6 : ∀ i : grid1.Coords, EltTy.bits .f32 = 32 ∨ (Rect.block (s := S1600000x128) S5000x128.size (cc1_transform_6 i) (hinb1_6 i)).WholeWords (EltTy.packing .f32)

variable [Facts₀]

def dot_S5000x3_S3x128_S5000x128_1_0_0_1_n_n : DotDims S5000x3 S3x128 S5000x128 where
  lhsContracting := [1]
  rhsContracting := [0]
  lhsNonContracting := [0]
  rhsNonContracting := [1]
  lhsBatch := []
  rhsBatch := []
  wf := dot_S5000x3_S3x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def dot_S5000x1_S1x128_S5000x128_1_0_0_1_n_n : DotDims S5000x1 S1x128 S5000x128 where
  lhsContracting := [1]
  rhsContracting := [0]
  lhsNonContracting := [0]
  rhsNonContracting := [1]
  lhsBatch := []
  rhsBatch := []
  wf := dot_S5000x1_S1x128_S5000x128_1_0_0_1_n_n_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x3 : Shape := ⟨2, ![50000, 3]⟩
abbrev S50000x128 : Shape := ⟨2, ![50000, 128]⟩
abbrev S1600000x128 : Shape := ⟨2, ![1600000, 128]⟩
abbrev S2x1600000 : Shape := ⟨2, ![2, 1600000]⟩
abbrev S50000x1 : Shape := ⟨2, ![50000, 1]⟩
abbrev S3x128 : Shape := ⟨2, ![3, 128]⟩
abbrev S128 : Shape := ⟨1, ![128]⟩
abbrev S128x128 : Shape := ⟨2, ![128, 128]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x3 : Shape := ⟨2, ![1600000, 3]⟩

abbrev nBuf : Space → Nat
  | .hbm => 68
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S50000x128, .f32⟩
  | .hbm, ⟨2, _⟩ => ⟨S1600000x128, .f32⟩
  | .hbm, ⟨3, _⟩ => ⟨S2x1600000, .i32⟩
  | .hbm, ⟨4, _⟩ => ⟨S50000x3, .f32⟩
  | .hbm, ⟨5, _⟩ => ⟨S50000x1, .i1⟩
  | .hbm, ⟨6, _⟩ => ⟨S3x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S50000x3, .i1⟩
  | .hbm, ⟨15, _⟩ => ⟨S50000x3, .f32⟩
  | .hbm, ⟨16, _⟩ => ⟨S50000x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S_, .f32⟩
  | .hbm, ⟨21, _⟩ => ⟨S50000x128, .f32⟩
  | .hbm, ⟨22, _⟩ => ⟨S50000x128, .f32⟩
  | .hbm, ⟨23, _⟩ => ⟨S50000x128, .f32⟩
  | .hbm, ⟨24, _⟩ => ⟨S1x128, .f32⟩
  | .hbm, ⟨25, _⟩ => ⟨S50000x128, .f32⟩
  | .hbm, ⟨26, _⟩ => ⟨S50000x128, .f32⟩
  | .hbm, ⟨27, _⟩ => ⟨S50000x128, .f32⟩
  | .hbm, ⟨28, _⟩ => ⟨S1x1600000, .i32⟩
  | .hbm, ⟨29, _⟩ => ⟨S1600000, .i32⟩
  | .hbm, ⟨30, _⟩ => ⟨S1x1600000, .i32⟩
  | .hbm, ⟨31, _⟩ => ⟨S1600000, .i32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x3, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x3, .f32⟩
  | .hbm, ⟨50, _⟩ => ⟨S1600000x3, .f32⟩
  | .hbm, ⟨51, _⟩ => ⟨S1600000x3, .f32⟩
  | .hbm, ⟨52, _⟩ => ⟨S_, .f32⟩
  | .hbm, ⟨53, _⟩ => ⟨S1600000, .f32⟩
  | .hbm, ⟨54, _⟩ => ⟨S1600000x1, .f32⟩
  | .hbm, ⟨55, _⟩ => ⟨S1600000x1, .f32⟩
  | .hbm, ⟨56, _⟩ => ⟨S1600000x128, .f32⟩
  | .hbm, ⟨57, _⟩ => ⟨S1x128, .f32⟩
  | .hbm, ⟨58, _⟩ => ⟨S1600000x128, .f32⟩
  | .hbm, ⟨59, _⟩ => ⟨S1600000x128, .f32⟩
  | .hbm, ⟨60, _⟩ => ⟨S_, .f32⟩
  | .hbm, ⟨61, _⟩ => ⟨S1600000x128, .f32⟩
  | .hbm, ⟨62, _⟩ => ⟨S1600000x128, .f32⟩
  | .hbm, ⟨63, _⟩ => ⟨S1600000x128, .f32⟩
  | .hbm, ⟨64, _⟩ => ⟨S1x128, .f32⟩
  | .hbm, ⟨65, _⟩ => ⟨S1600000x128, .f32⟩
  | .hbm, ⟨66, _⟩ => ⟨S1600000x128, .f32⟩
  | .hbm, ⟨67, _⟩ => ⟨S1600000x128, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call1_cst : Ref sig .tc := ⟨.hbm, 20, rfl⟩
abbrev main_call1_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_1 : Ref sig .tc := ⟨.hbm, 41, rfl⟩
abbrev main_v22 : Ref sig .tc := ⟨.hbm, 42, rfl⟩
abbrev main_v23 : Ref sig .tc := ⟨.hbm, 43, rfl⟩
abbrev main_c_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_call2_v0 : Ref sig .tc := ⟨.hbm, 51, rfl⟩
abbrev main_call2_cst : Ref sig .tc := ⟨.hbm, 52, rfl⟩
abbrev main_call2_v1 : Ref sig .tc := ⟨.hbm, 53, rfl⟩
abbrev main_call2_v2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call3_cst : Ref sig .tc := ⟨.hbm, 60, rfl⟩
abbrev main_call3_v0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]

class Facts₀ : Prop where
  bcast_S50000x1_S50000x3_0_1 : S50000x1.BroadcastsInDim S50000x3 (![0, 1] : Fin 2 → Fin S50000x3.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x3_S1600000_d1 : S1600000x3.ReducesTo [1] S1600000
  h_S_ : 0 < S_.numel
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  dot_S50000x3_S3x128_S50000x128_1_0_0_1_n_n_wf : DotDims.WF S50000x3 S3x128 S50000x128 [1] [0] [0] [1] [] []
  dot_S50000x128_S128x128_S50000x128_1_0_0_1_n_n_wf : DotDims.WF S50000x128 S128x128 S50000x128 [1] [0] [0] [1] [] []
  gather_S50000x3_S1600000x1_S1600000x3_1_0_n_n_0_1_13_wf : GatherDims.WF S50000x3 S1600000x1 S1600000x3 [1] [0] [] [0] [] 1 ![1, 3]
  dot_S1600000x1_S1x128_S1600000x128_1_0_0_1_n_n_wf : DotDims.WF S1600000x1 S1x128 S1600000x128 [1] [0] [0] [1] [] []
  dot_S1600000x128_S128x128_S1600000x128_1_0_0_1_n_n_wf : DotDims.WF S1600000x128 S128x128 S1600000x128 [1] [0] [0] [1] [] []

variable [Facts₀]

def dot_S50000x3_S3x128_S50000x128_1_0_0_1_n_n : DotDims S50000x3 S3x128 S50000x128 where
  lhsContracting := [1]
  rhsContracting := [0]
  lhsNonContracting := [0]
  rhsNonContracting := [1]
  lhsBatch := []
  rhsBatch := []
  wf := dot_S50000x3_S3x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x3_S1600000x1_S1600000x3_1_0_n_n_0_1_13 : GatherDims S50000x3 S1600000x1 S1600000x3 where
  offsetDims := [1]
  collapsedSliceDims := [0]
  operandBatchingDims := []
  startIndicesBatchingDims := []
  startIndexMap := [0]
  indexVectorDim := 1
  sliceSizes := ![1, 3]
  wf := gather_S50000x3_S1600000x1_S1600000x3_1_0_n_n_0_1_13_wf
def dot_S1600000x1_S1x128_S1600000x128_1_0_0_1_n_n : DotDims S1600000x1 S1x128 S1600000x128 where
  lhsContracting := [1]
  rhsContracting := [0]
  lhsNonContracting := [0]
  rhsNonContracting := [1]
  lhsBatch := []
  rhsBatch := []
  wf := dot_S1600000x1_S1x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf

class Facts : Prop extends Facts₀ where

variable [Facts]
-- ==== Proof.HostSide.lean ====
/-
  What the buffers hold at the boundaries of the idealized kernel's @main, in terms of the launch memory.
  @main is: two short host stretches (the masked positions; two bias reshapes), the node region, three host stretches
  (the endpoint gathers and their difference; its norm; two bias reshapes) and the edge region. The generated frame
  names the contents at each boundary as a fold (`W0` … `W7`). Read here, at the buffers the regions stage and at the
  two results:
  * before the node region: the argument arrays as launched, the masked positions, the two bias rows reshaped;
  * the node result is not written after its region, and the masked positions and the edge indices are not written by it;
  * before the edge region: the edge lengths — the SAME host operations as the reference's, so they are stated with
    the reference's own stage functions and never opened —, the argument arrays as launched, the bias rows reshaped.
-/
import proofs.«156848_j11003706212368_1_alg».proof.Proof.Gen.KernelIdeal.Frame
import proofs.«156848_j11003706212368_1_alg».proof.Proof.Gen.ReferenceIdeal.Read
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ) (ρ : Dev nD → PrngReg)

/-- Closes "no operation of this stretch writes that buffer". -/
local macro "not_written" ops:ident : tactic => `(tactic| (
  refine List.forall_iff_forall_mem.mp ?_
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! ### Before the node region -/

theorem V2_arg1 (c : Dev nD) : V2 m ρ c main_arg1 = m ((c : Thread nD τ).loc main_arg1) := by
  show StableHlo.after hostOps0_1 (StableHlo.after hostOps0 (W0 m ρ c)) (Proc.devRef .tc main_arg1) = _
  after_results
theorem V2_arg6 (c : Dev nD) : V2 m ρ c main_arg6 = m ((c : Thread nD τ).loc main_arg6) := by
  show StableHlo.after hostOps0_1 (StableHlo.after hostOps0 (W0 m ρ c)) (Proc.devRef .tc main_arg6) = _
  after_results
theorem V2_arg8 (c : Dev nD) : V2 m ρ c main_arg8 = m ((c : Thread nD τ).loc main_arg8) := by
  show StableHlo.after hostOps0_1 (StableHlo.after hostOps0 (W0 m ρ c)) (Proc.devRef .tc main_arg8) = _
  after_results
/-- The masked positions: the reference's own first stage, of the kernel's launch memory. -/
theorem V2_v0 (c : Dev nD) : V2 m ρ c main_v0 = Cert.ReferenceIdeal.Read.val_main_v0 (F := F)
    (m ((c : Thread nD τ).loc main_arg0)) (m ((c : Thread nD τ).loc main_arg4)) (m ((c : Thread nD τ).loc main_arg5)) := by
  show StableHlo.after hostOps0_1 (StableHlo.after hostOps0 (W0 m ρ c)) (Proc.devRef .tc main_v0) = _
  after_results; rfl
theorem V2_v1 (c : Dev nD) : V2 m ρ c main_v1 = shapeCast S1x128 (m ((c : Thread nD τ).loc main_arg7)) shapeCasts_S128_S1x128 := by
  show StableHlo.after hostOps0_1 (StableHlo.after hostOps0 (W0 m ρ c)) (Proc.devRef .tc main_v1) = _
  after_results; rfl
theorem V2_v2 (c : Dev nD) : V2 m ρ c main_v2 = shapeCast S1x128 (m ((c : Thread nD τ).loc main_arg9)) shapeCasts_S128_S1x128 := by
  show StableHlo.after hostOps0_1 (StableHlo.after hostOps0 (W0 m ρ c)) (Proc.devRef .tc main_v2) = _
  after_results; rfl

/-! ### The node region's exit -/

/-- The node region only stages the masked positions: they are as before it. -/
theorem W3_v0 (c : Dev nD) : W3 m ρ c (Proc.devRef .tc main_v0) = Cert.ReferenceIdeal.Read.val_main_v0 (F := F) (m ((c : Thread nD τ).loc main_arg0)) (m ((c : Thread nD τ).loc main_arg4)) (m ((c : Thread nD τ).loc main_arg5)) :=
  (W3_arr m ρ c 1).trans (((dat0 (V2 m ρ) c).arrAt_in 1 rfl _).trans ((A_eq0 (V2 m ρ) c 1).trans (V2_v0 m ρ c)))

/-- The edge indices are no array of the node region and no host operation before it writes them. -/
theorem W3_arg3 (c : Dev nD) : W3 m ρ c (Proc.devRef .tc main_arg3) = (m ((c : Thread nD τ).loc main_arg3)) := by
  rw [W3_of_ne m ρ c main_arg3 (by decide)]
  show StableHlo.after hostOps0_1 (StableHlo.after hostOps0 (W0 m ρ c)) (Proc.devRef .tc main_arg3) = _
  after_results

/-- The node result is what the node region's write-backs leave: nothing after the region writes it. -/
theorem W7_v3 (c : Dev nD) : W7 m ρ c (Proc.devRef .tc main_v3) = (dat0 (V2 m ρ) c).arrAt 6 cfg0.N :=
  calc W7 m ρ c (Proc.devRef .tc main_v3)
    _ = W6 m ρ c (Proc.devRef .tc main_v3) := W7_of_ne m ρ c main_v3 (by decide)
    _ = W5 m ρ c (Proc.devRef .tc main_v3) := StableHlo.after_of_forall_not_mem (b := Proc.devRef .tc main_v3) _ _ (by not_written hostOps1_2)
    _ = W4 m ρ c (Proc.devRef .tc main_v3) := StableHlo.after_of_forall_not_mem (b := Proc.devRef .tc main_v3) _ _ (by not_written hostOps1_1)
    _ = W3 m ρ c (Proc.devRef .tc main_v3) := StableHlo.after_of_forall_not_mem (b := Proc.devRef .tc main_v3) _ _ (by not_written hostOps1)
    _ = (dat0 (V2 m ρ) c).arrAt 6 cfg0.N := W3_arr m ρ c 6

/-- The edge result is what the edge region's write-backs leave. -/
theorem W7_v26 (c : Dev nD) : W7 m ρ c (Proc.devRef .tc main_v26) = (dat1 (V6 m ρ) c).arrAt 6 cfg1.N := W7_arr m ρ c 6

/-! ### The three stretches between the regions, over ANY contents they start from -/

set_option maxHeartbeats 2000000 in
/-- The endpoint gathers and their difference: from contents holding the masked positions and the edge indices, the
    stretch leaves the reference's own difference stage. -/
theorem diff_stretch (Wb : Valuation τ sig (Elt F))
    (x0 x4 : (⟨S50000x3, .f32⟩ : BufTy).Contents (Elt F)) (x5 : (⟨S50000x1, .i1⟩ : BufTy).Contents (Elt F))
    (x3 : (⟨S2x1600000, .i32⟩ : BufTy).Contents (Elt F))
    (hP : Wb (Proc.devRef .tc main_v0) = Cert.ReferenceIdeal.Read.val_main_v0 (F := F) x0 x4 x5)
    (hE : Wb (Proc.devRef .tc main_arg3) = x3) :
    StableHlo.after hostOps1 Wb (Proc.devRef .tc main_v22) = Cert.ReferenceIdeal.Read.val_main_v29 (F := F) x0 x3 x4 x5 := by
  subst hE
  after_results_simp
  rw [hP]
  rfl

/-- The norm of the differences: from contents holding a difference array, the stretch leaves its row norms. -/
theorem norm_stretch (Wb : Valuation τ sig (Elt F)) (D : (⟨S1600000x3, .f32⟩ : BufTy).Contents (Elt F))
    (hD : Wb (Proc.devRef .tc main_v22) = D) :
    StableHlo.after hostOps1_1 Wb (Proc.devRef .tc main_v23)
      = Host.sqrt (broadcastInDim S1600000x1 ![0] bcast_S1600000_S1600000x1_0
          (Host.reduceAdd (mulf D D) (constant S_ .f32 0x00000000#32) reducesTo_S1600000x3_S1600000_d1 h_S_)) := by
  subst hD
  after_results
  rfl

/-- The two bias reshapes before the edge region. -/
theorem reshape_stretch_v24 (Wb : Valuation τ sig (Elt F)) (b : (⟨S128, .f32⟩ : BufTy).Contents (Elt F))
    (hb : Wb (Proc.devRef .tc main_arg11) = b) :
    StableHlo.after hostOps1_2 Wb (Proc.devRef .tc main_v24) = shapeCast S1x128 b shapeCasts_S128_S1x128 := by
  subst hb
  after_results
  rfl
theorem reshape_stretch_v25 (Wb : Valuation τ sig (Elt F)) (b : (⟨S128, .f32⟩ : BufTy).Contents (Elt F))
    (hb : Wb (Proc.devRef .tc main_arg13) = b) :
    StableHlo.after hostOps1_2 Wb (Proc.devRef .tc main_v25) = shapeCast S1x128 b shapeCasts_S128_S1x128 := by
  subst hb
  after_results
  rfl

/-! ### Before the edge region -/

/-- The edge lengths: the reference's own length stage, of the kernel's launch memory. -/
theorem V6_v23 (c : Dev nD) : V6 m ρ c main_v23 = Cert.ReferenceIdeal.Read.val_main_v30 (F := F) (m ((c : Thread nD τ).loc main_arg0)) (m ((c : Thread nD τ).loc main_arg3)) (m ((c : Thread nD τ).loc main_arg4)) (m ((c : Thread nD τ).loc main_arg5)) :=
  calc W6 m ρ c (Proc.devRef .tc main_v23)
    _ = W5 m ρ c (Proc.devRef .tc main_v23) := StableHlo.after_of_forall_not_mem (b := Proc.devRef .tc main_v23) _ _ (by not_written hostOps1_2)
    _ = _ := norm_stretch (W4 m ρ c) _ (diff_stretch (W3 m ρ c) _ _ _ _ (W3_v0 m ρ c) (W3_arg3 m ρ c))
    _ = Cert.ReferenceIdeal.Read.val_main_v30 (F := F) (m ((c : Thread nD τ).loc main_arg0)) (m ((c : Thread nD τ).loc main_arg3)) (m ((c : Thread nD τ).loc main_arg4)) (m ((c : Thread nD τ).loc main_arg5)) := rfl

/-- The argument arrays the edge region stages are as launched (they end as launched, and the region only stages them). -/
theorem V6_arg2 (c : Dev nD) : V6 m ρ c main_arg2 = (m ((c : Thread nD τ).loc main_arg2)) :=
  (A_eq1 (V6 m ρ) c 0).symm.trans (((dat1 (V6 m ρ) c).arrAt_in 0 rfl _).symm.trans ((W7_arr m ρ c 0).symm.trans (W7_main_arg2 m ρ c)))
theorem V6_arg10 (c : Dev nD) : V6 m ρ c main_arg10 = (m ((c : Thread nD τ).loc main_arg10)) :=
  (A_eq1 (V6 m ρ) c 2).symm.trans (((dat1 (V6 m ρ) c).arrAt_in 2 rfl _).symm.trans ((W7_arr m ρ c 2).symm.trans (W7_main_arg10 m ρ c)))
theorem V6_arg12 (c : Dev nD) : V6 m ρ c main_arg12 = (m ((c : Thread nD τ).loc main_arg12)) :=
  (A_eq1 (V6 m ρ) c 4).symm.trans (((dat1 (V6 m ρ) c).arrAt_in 4 rfl _).symm.trans ((W7_arr m ρ c 4).symm.trans (W7_main_arg12 m ρ c)))

/-- The bias vectors are as launched when the last stretch reshapes them. -/
theorem W5_arg11 (c : Dev nD) : W5 m ρ c (Proc.devRef .tc main_arg11) = (m ((c : Thread nD τ).loc main_arg11)) :=
  calc W5 m ρ c (Proc.devRef .tc main_arg11)
    _ = W6 m ρ c (Proc.devRef .tc main_arg11) := (StableHlo.after_of_forall_not_mem (b := Proc.devRef .tc main_arg11) _ _ (by not_written hostOps1_2)).symm
    _ = W7 m ρ c (Proc.devRef .tc main_arg11) := (W7_of_ne m ρ c main_arg11 (by decide)).symm
    _ = (m ((c : Thread nD τ).loc main_arg11)) := W7_main_arg11 m ρ c
theorem W5_arg13 (c : Dev nD) : W5 m ρ c (Proc.devRef .tc main_arg13) = (m ((c : Thread nD τ).loc main_arg13)) :=
  calc W5 m ρ c (Proc.devRef .tc main_arg13)
    _ = W6 m ρ c (Proc.devRef .tc main_arg13) := (StableHlo.after_of_forall_not_mem (b := Proc.devRef .tc main_arg13) _ _ (by not_written hostOps1_2)).symm
    _ = W7 m ρ c (Proc.devRef .tc main_arg13) := (W7_of_ne m ρ c main_arg13 (by decide)).symm
    _ = (m ((c : Thread nD τ).loc main_arg13)) := W7_main_arg13 m ρ c
theorem V6_v24 (c : Dev nD) : V6 m ρ c main_v24 = shapeCast S1x128 (m ((c : Thread nD τ).loc main_arg11)) shapeCasts_S128_S1x128 :=
  reshape_stretch_v24 (W5 m ρ c) _ (W5_arg11 m ρ c)
theorem V6_v25 (c : Dev nD) : V6 m ρ c main_v25 = shapeCast S1x128 (m ((c : Thread nD τ).loc main_arg13)) shapeCasts_S128_S1x128 :=
  reshape_stretch_v25 (W5 m ρ c) _ (W5_arg13 m ρ c)

end Cert.KernelIdeal.HostSide

end
-- ==== Proof.Mlp.lean ====
/-
  One entry of a two-layer perceptron with a residual, on the extended reals:
      res + ((∑ k, max ((∑ j, a j · W1 j k) + b1 k) 0 · w2 k) + b2).
  The inner sum is the first linear layer's entry k for one input row `a`, `max · 0` the rectifier, the outer
  sum the second layer's entry for one output column `w2`, and `res` the value the result is added to.
  Both programs of this certificate compute their two results entry by entry in exactly this shape (the additions
  in this order), so stating it once lets the two sides meet without any law of the extended reals.
-/
import Idealize.ShloMosaic.PureOps.Ideal
import Idealize.ShloMosaic.Lib.ValueIdx

noncomputable section

namespace Cert.Spec

open Idealize.ShloMosaic

/-- One entry of `res + (relu (a · W1 + b1) · w2 + b2)`, the sums over the two contracted axes. -/
def mlpEntry {K H : ℕ} (res : EReal) (a : Fin K → EReal) (W1 : Fin K → Fin H → EReal) (b1 : Fin H → EReal)
    (w2 : Fin H → EReal) (b2 : EReal) : EReal :=
  res + ((∑ k : Fin H, max ((∑ j : Fin K, a j * W1 j k) + b1 k) 0 * w2 k) + b2)

/-- Two entries agree when their data agree, piece by piece. -/
theorem mlpEntry_congr {K H : ℕ} {res res' : EReal} {a a' : Fin K → EReal} {W1 W1' : Fin K → Fin H → EReal}
    {b1 b1' : Fin H → EReal} {w2 w2' : Fin H → EReal} {b2 b2' : EReal}
    (h0 : res = res') (h1 : ∀ j, a j = a' j) (h2 : ∀ j k, W1 j k = W1' j k) (h3 : ∀ k, b1 k = b1' k)
    (h4 : ∀ k, w2 k = w2' k) (h5 : b2 = b2') :
    mlpEntry res a W1 b1 w2 b2 = mlpEntry res' a' W1' b1' w2' b2' := by
  have e1 : a = a' := funext h1
  have e2 : W1 = W1' := funext fun j => funext (h2 j)
  have e3 : b1 = b1' := funext h3
  have e4 : w2 = w2' := funext h4
  rw [h0, e1, e2, e3, e4, h5]

end Cert.Spec

end
-- ==== Proof.DotP.lean ====
/-
  One contraction of the kernel bodies read at an index: the record `dot_S5000x3_S3x128_S5000x128_1_0_0_1_n_n`
  ([5000, 3] × [3, 128] → [5000, 128], contracting the left factor's axis 1 with the right factor's axis 0).
  Entry (p, q) of the product into the zero accumulator is the sum over the 3 contracted positions of row p of
  the left factor against column q of the right one. The four axis facts say where the operand indices of output
  index i and contraction index k sit; the sum is then re-indexed from the record's contraction shape to `Fin 3`.
-/
import proofs.«156848_j11003706212368_1_alg».proof.Proof.Gen.KernelIdeal
import Idealize.ShloMosaic.Lib.ValueIdx
import Idealize.ShloMosaic.PureOps.Ideal.Laws

noncomputable section

namespace Cert.KernelIdeal.DotP

open Cert.KernelIdeal Idealize.ShloMosaic Idealize.ShloMosaic.TcCoe Idealize.ShloMosaic.ValueIdx

theorem lhs_0 (i : S5000x128.Idx) (q : dot_S5000x3_S3x128_S5000x128_1_0_0_1_n_n.contr.Idx) :
    (dot_S5000x3_S3x128_S5000x128_1_0_0_1_n_n.lhsIdx i q 0).val = (i 0).val := by
  unfold DotDims.lhsIdx
  rw [dif_neg (show ¬(0 : Fin S5000x3.rank) ∈ dot_S5000x3_S3x128_S5000x128_1_0_0_1_n_n.lhsBatch by decide), dif_pos (show (0 : Fin S5000x3.rank) ∈ dot_S5000x3_S3x128_S5000x128_1_0_0_1_n_n.lhsNonContracting by decide)]
  rfl
theorem lhs_1 (i : S5000x128.Idx) (q : dot_S5000x3_S3x128_S5000x128_1_0_0_1_n_n.contr.Idx) :
    (dot_S5000x3_S3x128_S5000x128_1_0_0_1_n_n.lhsIdx i q 1).val = (q ⟨0, by decide⟩).val :=
  dot_S5000x3_S3x128_S5000x128_1_0_0_1_n_n.lhsIdx_val_of_single rfl i q
theorem rhs_0 (i : S5000x128.Idx) (q : dot_S5000x3_S3x128_S5000x128_1_0_0_1_n_n.contr.Idx) :
    (dot_S5000x3_S3x128_S5000x128_1_0_0_1_n_n.rhsIdx i q 0).val = (q ⟨0, by decide⟩).val :=
  dot_S5000x3_S3x128_S5000x128_1_0_0_1_n_n.rhsIdx_val_of_single rfl i q
theorem rhs_1 (i : S5000x128.Idx) (q : dot_S5000x3_S3x128_S5000x128_1_0_0_1_n_n.contr.Idx) :
    (dot_S5000x3_S3x128_S5000x128_1_0_0_1_n_n.rhsIdx i q 1).val = (i 1).val := by
  unfold DotDims.rhsIdx
  rw [dif_neg (show ¬(1 : Fin S3x128.rank) ∈ dot_S5000x3_S3x128_S5000x128_1_0_0_1_n_n.rhsBatch by decide), dif_pos (show (1 : Fin S3x128.rank) ∈ dot_S5000x3_S3x128_S5000x128_1_0_0_1_n_n.rhsNonContracting by decide)]
  rfl

/-- Entry (p, q) of the product into the zero accumulator. -/
theorem matmul_apply (l : FVec Ideal S5000x3 .bf16) (r : FVec Ideal S3x128 .bf16) (p : Fin 5000) (q : Fin 128) :
    matmul dot_S5000x3_S3x128_S5000x128_1_0_0_1_n_n none l r (constant (F := Ideal) S5000x128 .f32 0x00000000#32) (ix2 p q)
      = ∑ k : Fin 3, l (ix2 p k) * r (ix2 k q) := by
  simp only [matmul]
  rw [Ideal.matmul_constant_zero_apply, ← Equiv.sum_comp (ValueIdx.contrEquiv1 dot_S5000x3_S3x128_S5000x128_1_0_0_1_n_n 3 rfl rfl).symm]
  refine Finset.sum_congr rfl fun k _ => ?_
  have hk := ValueIdx.contrEquiv1_symm_val dot_S5000x3_S3x128_S5000x128_1_0_0_1_n_n 3 rfl rfl k
  have el : dot_S5000x3_S3x128_S5000x128_1_0_0_1_n_n.lhsIdx (ix2 p q) ((ValueIdx.contrEquiv1 dot_S5000x3_S3x128_S5000x128_1_0_0_1_n_n 3 rfl rfl).symm k) = ix2 p k := funext fun a => Fin.ext (by
    match a with
    | ⟨0, _⟩ => exact lhs_0 _ _
    | ⟨1, _⟩ => exact (lhs_1 _ _).trans hk)
  have er : dot_S5000x3_S3x128_S5000x128_1_0_0_1_n_n.rhsIdx (ix2 p q) ((ValueIdx.contrEquiv1 dot_S5000x3_S3x128_S5000x128_1_0_0_1_n_n 3 rfl rfl).symm k) = ix2 k q := funext fun a => Fin.ext (by
    match a with
    | ⟨0, _⟩ => exact (rhs_0 _ _).trans hk
    | ⟨1, _⟩ => exact rhs_1 _ _)
  rw [el, er]

end Cert.KernelIdeal.DotP

end
-- ==== Proof.DotL.lean ====
/-
  One contraction of the kernel bodies read at an index: the record `dot_S5000x1_S1x128_S5000x128_1_0_0_1_n_n`
  ([5000, 1] × [1, 128] → [5000, 128], contracting the left factor's axis 1 with the right factor's axis 0).
  Entry (p, q) of the product into the zero accumulator is the sum over the 1 contracted positions of row p of
  the left factor against column q of the right one. The four axis facts say where the operand indices of output
  index i and contraction index k sit; the sum is then re-indexed from the record's contraction shape to `Fin 1`.
-/
import proofs.«156848_j11003706212368_1_alg».proof.Proof.Gen.KernelIdeal
import Idealize.ShloMosaic.Lib.ValueIdx
import Idealize.ShloMosaic.PureOps.Ideal.Laws

noncomputable section

namespace Cert.KernelIdeal.DotL

open Cert.KernelIdeal Idealize.ShloMosaic Idealize.ShloMosaic.TcCoe Idealize.ShloMosaic.ValueIdx

theorem lhs_0 (i : S5000x128.Idx) (q : dot_S5000x1_S1x128_S5000x128_1_0_0_1_n_n.contr.Idx) :
    (dot_S5000x1_S1x128_S5000x128_1_0_0_1_n_n.lhsIdx i q 0).val = (i 0).val := by
  unfold DotDims.lhsIdx
  rw [dif_neg (show ¬(0 : Fin S5000x1.rank) ∈ dot_S5000x1_S1x128_S5000x128_1_0_0_1_n_n.lhsBatch by decide), dif_pos (show (0 : Fin S5000x1.rank) ∈ dot_S5000x1_S1x128_S5000x128_1_0_0_1_n_n.lhsNonContracting by decide)]
  rfl
theorem lhs_1 (i : S5000x128.Idx) (q : dot_S5000x1_S1x128_S5000x128_1_0_0_1_n_n.contr.Idx) :
    (dot_S5000x1_S1x128_S5000x128_1_0_0_1_n_n.lhsIdx i q 1).val = (q ⟨0, by decide⟩).val :=
  dot_S5000x1_S1x128_S5000x128_1_0_0_1_n_n.lhsIdx_val_of_single rfl i q
theorem rhs_0 (i : S5000x128.Idx) (q : dot_S5000x1_S1x128_S5000x128_1_0_0_1_n_n.contr.Idx) :
    (dot_S5000x1_S1x128_S5000x128_1_0_0_1_n_n.rhsIdx i q 0).val = (q ⟨0, by decide⟩).val :=
  dot_S5000x1_S1x128_S5000x128_1_0_0_1_n_n.rhsIdx_val_of_single rfl i q
theorem rhs_1 (i : S5000x128.Idx) (q : dot_S5000x1_S1x128_S5000x128_1_0_0_1_n_n.contr.Idx) :
    (dot_S5000x1_S1x128_S5000x128_1_0_0_1_n_n.rhsIdx i q 1).val = (i 1).val := by
  unfold DotDims.rhsIdx
  rw [dif_neg (show ¬(1 : Fin S1x128.rank) ∈ dot_S5000x1_S1x128_S5000x128_1_0_0_1_n_n.rhsBatch by decide), dif_pos (show (1 : Fin S1x128.rank) ∈ dot_S5000x1_S1x128_S5000x128_1_0_0_1_n_n.rhsNonContracting by decide)]
  rfl

/-- Entry (p, q) of the product into the zero accumulator. -/
theorem matmul_apply (l : FVec Ideal S5000x1 .bf16) (r : FVec Ideal S1x128 .bf16) (p : Fin 5000) (q : Fin 128) :
    matmul dot_S5000x1_S1x128_S5000x128_1_0_0_1_n_n none l r (constant (F := Ideal) S5000x128 .f32 0x00000000#32) (ix2 p q)
      = ∑ k : Fin 1, l (ix2 p k) * r (ix2 k q) := by
  simp only [matmul]
  rw [Ideal.matmul_constant_zero_apply, ← Equiv.sum_comp (ValueIdx.contrEquiv1 dot_S5000x1_S1x128_S5000x128_1_0_0_1_n_n 1 rfl rfl).symm]
  refine Finset.sum_congr rfl fun k _ => ?_
  have hk := ValueIdx.contrEquiv1_symm_val dot_S5000x1_S1x128_S5000x128_1_0_0_1_n_n 1 rfl rfl k
  have el : dot_S5000x1_S1x128_S5000x128_1_0_0_1_n_n.lhsIdx (ix2 p q) ((ValueIdx.contrEquiv1 dot_S5000x1_S1x128_S5000x128_1_0_0_1_n_n 1 rfl rfl).symm k) = ix2 p k := funext fun a => Fin.ext (by
    match a with
    | ⟨0, _⟩ => exact lhs_0 _ _
    | ⟨1, _⟩ => exact (lhs_1 _ _).trans hk)
  have er : dot_S5000x1_S1x128_S5000x128_1_0_0_1_n_n.rhsIdx (ix2 p q) ((ValueIdx.contrEquiv1 dot_S5000x1_S1x128_S5000x128_1_0_0_1_n_n 1 rfl rfl).symm k) = ix2 k q := funext fun a => Fin.ext (by
    match a with
    | ⟨0, _⟩ => exact (rhs_0 _ _).trans hk
    | ⟨1, _⟩ => exact rhs_1 _ _)
  rw [el, er]

end Cert.KernelIdeal.DotL

end
-- ==== Proof.DotH.lean ====
/-
  One contraction of the kernel bodies read at an index: the record `dot_S5000x128_S128x128_S5000x128_1_0_0_1_n_n`
  ([5000, 128] × [128, 128] → [5000, 128], contracting the left factor's axis 1 with the right factor's axis 0).
  Entry (p, q) of the product into the zero accumulator is the sum over the 128 contracted positions of row p of
  the left factor against column q of the right one. The four axis facts say where the operand indices of output
  index i and contraction index k sit; the sum is then re-indexed from the record's contraction shape to `Fin 128`.
-/
import proofs.«156848_j11003706212368_1_alg».proof.Proof.Gen.KernelIdeal
import Idealize.ShloMosaic.Lib.ValueIdx
import Idealize.ShloMosaic.PureOps.Ideal.Laws

noncomputable section

namespace Cert.KernelIdeal.DotH

open Cert.KernelIdeal Idealize.ShloMosaic Idealize.ShloMosaic.TcCoe Idealize.ShloMosaic.ValueIdx

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the product into the zero accumulator. -/
theorem matmul_apply (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

end Cert.KernelIdeal.DotH

end
-- ==== Proof.Pay.lean ====
/-
  What one grid point's body stores, read entry by entry. Each kernel body loads a block of rows (5000 positions, or
  5000 edge lengths), the two weight matrices and the two bias rows whole, and stores
      block + ((max (rows · W1 + b1) 0) · W2 + b2),
  the two products into zero accumulators. At the ideal values a change of float format is the identity, a product
  into a zero accumulator is the plain sum over the contracted axis (the three contractions read at an index: 3
  coordinates of a position, 1 length, 128 hidden units), a bias row broadcast over the rows reads its one row, and
  the zero word is 0. So entry (p, q) of the stored block is `Spec.mlpEntry` of row p of the loaded rows, the
  weights, the bias rows and column q.
-/
import proofs.«156848_j11003706212368_1_alg».proof.Proof.Gen.KernelIdeal.Skeleton
import proofs.«156848_j11003706212368_1_alg».proof.Proof.Mlp
import proofs.«156848_j11003706212368_1_alg».proof.Proof.DotP
import proofs.«156848_j11003706212368_1_alg».proof.Proof.DotL
import proofs.«156848_j11003706212368_1_alg».proof.Proof.DotH
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.TcCoe Idealize.ShloMosaic.ValueIdx

/-- Entry (p, q) of what the node body stores. -/
theorem node_pay_apply (v0 : FVec Ideal S5000x3 .f32) (v3 : FVec Ideal S3x128 .f32) (v6 : FVec Ideal S1x128 .f32)
    (v13 : FVec Ideal S128x128 .f32) (v16 : FVec Ideal S1x128 .f32) (v20 : FVec Ideal S5000x128 .f32) (p : Fin 5000) (q : Fin 128) :
    k0_pay1 (F := Ideal) v0 v3 v6 v13 v16 v20 (ix2 p q)
      = Spec.mlpEntry (v20 (ix2 p q)) (fun j : Fin 3 => v0 (ix2 p j)) (fun j k => v3 (ix2 j k))
          (fun k : Fin 128 => v6 (ix2 (0 : Fin 1) k)) (fun k => v13 (ix2 k q)) (v16 (ix2 (0 : Fin 1) q)) := by
  unfold k0_pay1 Spec.mlpEntry
  dsimp only
  simp only [shapeCast_self, addf_apply, maximumf_apply, truncf_apply, broadcast_apply, DotH.matmul_apply, DotP.matmul_apply,
    broadcastTo_1b_ab_apply, Ideal.ofBits_def, Ideal.ofBits_zero_f32]

/-- Entry (p, q) of what the edge body stores: the same shape with ONE contracted position in the first layer (the
    edge's length against the one row of its weight). -/
theorem edge_pay_apply (v0 : FVec Ideal S5000x1 .f32) (v3 : FVec Ideal S1x128 .f32) (v6 : FVec Ideal S1x128 .f32)
    (v13 : FVec Ideal S128x128 .f32) (v16 : FVec Ideal S1x128 .f32) (v20 : FVec Ideal S5000x128 .f32) (p : Fin 5000) (q : Fin 128) :
    k1_pay1 (F := Ideal) v0 v3 v6 v13 v16 v20 (ix2 p q)
      = Spec.mlpEntry (v20 (ix2 p q)) (fun j : Fin 1 => v0 (ix2 p j)) (fun j k => v3 (ix2 j k))
          (fun k : Fin 128 => v6 (ix2 (0 : Fin 1) k)) (fun k => v13 (ix2 k q)) (v16 (ix2 (0 : Fin 1) q)) := by
  unfold k1_pay1 Spec.mlpEntry
  dsimp only
  simp only [shapeCast_self, addf_apply, maximumf_apply, truncf_apply, broadcast_apply, DotH.matmul_apply, DotL.matmul_apply,
    broadcastTo_1b_ab_apply, Ideal.ofBits_def, Ideal.ofBits_zero_f32]

end Cert.KernelIdeal.Pay

end
-- ==== Proof.NodeArr.lean ====
/-
  The node result, whole. Region 0 runs the node body at 10 grid points; point t stages rows 5000·t … 5000·t + 4999 of
  the array the result is added to and of the first layer's input (3 to a row), the two weight matrices and the two
  bias rows whole, and writes back rows 5000·t … of the result. So what point t writes back is block t of ONE function
  of the arrays the region finds: entry (r, c) is `Spec.mlpEntry` of the added entry, row r of the first layer's input,
  the weights, the bias rows and column c. The 10 blocks tile the 50000 rows (row r is in block r / 5000), so the array
  ends as that function. Stated at ANY entry contents `V`, as the generated frame states the region.
-/
import proofs.«156848_j11003706212368_1_alg».proof.Proof.Gen.KernelIdeal.Frame
import proofs.«156848_j11003706212368_1_alg».proof.Proof.Pay
import Idealize.ShloMosaic.Lib.Pipeline.Value

set_option maxRecDepth 16384

noncomputable section

namespace Cert.KernelIdeal.NodeArr

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry (r, c) of the node result from the arrays the region reads. -/
def nodeAt (x : FVec Ideal S50000x128 .f32) (a : FVec Ideal S50000x3 .f32) (W1 : FVec Ideal S3x128 .f32)
    (b1 : FVec Ideal S1x128 .f32) (W2 : FVec Ideal S128x128 .f32) (b2 : FVec Ideal S1x128 .f32) (r : Fin 50000) (c : Fin 128) : EReal :=
  Spec.mlpEntry (x (ix2 r c)) (fun j : Fin 3 => a (ix2 r j)) (fun j k => W1 (ix2 j k))
    (fun k : Fin 128 => b1 (ix2 (0 : Fin 1) k)) (fun k => W2 (ix2 k c)) (b2 (ix2 (0 : Fin 1) c))

/-- The node result as one array. -/
def nodeG (x : FVec Ideal S50000x128 .f32) (a : FVec Ideal S50000x3 .f32) (W1 : FVec Ideal S3x128 .f32)
    (b1 : FVec Ideal S1x128 .f32) (W2 : FVec Ideal S128x128 .f32) (b2 : FVec Ideal S1x128 .f32) : FVec Ideal S50000x128 .f32 :=
  fun i => nodeAt x a W1 b1 W2 b2 ⟨(i 0).val, (i 0).isLt⟩ ⟨(i 1).val, (i 1).isLt⟩

theorem nodeG_ix2 (x : FVec Ideal S50000x128 .f32) (a : FVec Ideal S50000x3 .f32) (W1 : FVec Ideal S3x128 .f32)
    (b1 : FVec Ideal S1x128 .f32) (W2 : FVec Ideal S128x128 .f32) (b2 : FVec Ideal S1x128 .f32) (r : Fin 50000) (c : Fin 128) :
    nodeG x a W1 b1 W2 b2 (ix2 r c) = nodeAt x a W1 b1 W2 b2 r c := rfl

/-- The printed index maps over the 10 points: the row windows move with the result's, the weights and bias rows sit at
    block 0, and the result's block index is the point's, at most 9. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 9 ∧ win0_6.index t (1 : Fin 2) = 0 :=
  (by decide +kernel : ∀ t : Fin grid0.N, _)

/-- Every block of rows is some point's. -/
theorem idx_onto : ∀ q0 : Fin 10, ∃ t : Fin cfg0.N, win0_6.index t = ![q0.val, 0] :=
  (by decide +kernel : ∀ q0 : Fin 10, ∃ t : Fin grid0.N, win0_6.index t = ![q0.val, 0])

/-- Row p of point t's blocks is row 5000·t + p of the arrays. -/
def row (t : Fin cfg0.N) (p : Fin 5000) : Fin 50000 :=
  ⟨win0_6.index t (0 : Fin 2) * 5000 + p.val, by have := (idx_facts t).2.2.2.2.2.2.2.2.2.2.2.2.1; have := p.isLt; omega⟩

/-! ### Where each window's block sits in its array -/

theorem emb0 (t : Fin cfg0.N) (p : Fin 5000) (q : Fin 128) :
    ((cfg0.win 0).blk t).view.emb (ix2 p q : S5000x128.Idx) = (ix2 (row t p) q : S50000x128.Idx) := by
  obtain ⟨e0, e1, -⟩ := idx_facts t
  funext a; apply Fin.ext
  match a with
  | ⟨0, _⟩ => show win0_0.index t (0 : Fin 2) * 5000 + 1 * p.val = win0_6.index t (0 : Fin 2) * 5000 + p.val; omega
  | ⟨1, _⟩ => show win0_0.index t (1 : Fin 2) * 128 + 1 * q.val = q.val; omega

theorem emb1 (t : Fin cfg0.N) (p : Fin 5000) (j : Fin 3) :
    ((cfg0.win 1).blk t).view.emb (ix2 p j : S5000x3.Idx) = (ix2 (row t p) j : S50000x3.Idx) := by
  obtain ⟨-, -, e0, e1, -⟩ := idx_facts t
  funext a; apply Fin.ext
  match a with
  | ⟨0, _⟩ => show win0_1.index t (0 : Fin 2) * 5000 + 1 * p.val = win0_6.index t (0 : Fin 2) * 5000 + p.val; omega
  | ⟨1, _⟩ => show win0_1.index t (1 : Fin 2) * 3 + 1 * j.val = j.val; omega

theorem emb2 (t : Fin cfg0.N) (j : Fin 3) (k : Fin 128) :
    ((cfg0.win 2).blk t).view.emb (ix2 j k : S3x128.Idx) = (ix2 j k : S3x128.Idx) := by
  obtain ⟨-, -, -, -, e0, e1, -⟩ := idx_facts t
  funext a; apply Fin.ext
  match a with
  | ⟨0, _⟩ => show win0_2.index t (0 : Fin 2) * 3 + 1 * j.val = j.val; omega
  | ⟨1, _⟩ => show win0_2.index t (1 : Fin 2) * 128 + 1 * k.val = k.val; omega

theorem emb3 (t : Fin cfg0.N) (u : Fin 1) (k : Fin 128) :
    ((cfg0.win 3).blk t).view.emb (ix2 u k : S1x128.Idx) = (ix2 u k : S1x128.Idx) := by
  obtain ⟨-, -, -, -, -, -, e0, e1, -⟩ := idx_facts t
  funext a; apply Fin.ext
  match a with
  | ⟨0, _⟩ => show win0_3.index t (0 : Fin 2) * 1 + 1 * u.val = u.val; omega
  | ⟨1, _⟩ => show win0_3.index t (1 : Fin 2) * 128 + 1 * k.val = k.val; omega

theorem emb4 (t : Fin cfg0.N) (k : Fin 128) (q : Fin 128) :
    ((cfg0.win 4).blk t).view.emb (ix2 k q : S128x128.Idx) = (ix2 k q : S128x128.Idx) := by
  obtain ⟨-, -, -, -, -, -, -, -, e0, e1, -⟩ := idx_facts t
  funext a; apply Fin.ext
  match a with
  | ⟨0, _⟩ => show win0_4.index t (0 : Fin 2) * 128 + 1 * k.val = k.val; omega
  | ⟨1, _⟩ => show win0_4.index t (1 : Fin 2) * 128 + 1 * q.val = q.val; omega

theorem emb5 (t : Fin cfg0.N) (u : Fin 1) (k : Fin 128) :
    ((cfg0.win 5).blk t).view.emb (ix2 u k : S1x128.Idx) = (ix2 u k : S1x128.Idx) := by
  obtain ⟨-, -, -, -, -, -, -, -, -, -, e0, e1, -⟩ := idx_facts t
  funext a; apply Fin.ext
  match a with
  | ⟨0, _⟩ => show win0_5.index t (0 : Fin 2) * 1 + 1 * u.val = u.val; omega
  | ⟨1, _⟩ => show win0_5.index t (1 : Fin 2) * 128 + 1 * k.val = k.val; omega

theorem emb6 (t : Fin cfg0.N) (p : Fin 5000) (q : Fin 128) :
    ((cfg0.win 6).blk t).view.emb (ix2 p q : S5000x128.Idx) = (ix2 (row t p) q : S50000x128.Idx) := by
  obtain ⟨-, -, -, -, -, -, -, -, -, -, -, -, -, e1⟩ := idx_facts t
  funext a; apply Fin.ext
  match a with
  | ⟨0, _⟩ => show win0_6.index t (0 : Fin 2) * 5000 + 1 * p.val = win0_6.index t (0 : Fin 2) * 5000 + p.val; omega
  | ⟨1, _⟩ => show win0_6.index t (1 : Fin 2) * 128 + 1 * q.val = q.val; omega

/-! ### What a point writes back, the cover, and the whole array -/

/-- WHAT POINT t WRITES BACK is block t of the node function of the arrays the region finds. -/
theorem flushed_eq (c : Dev nD) (t : Fin cfg0.N) :
    (dat0 V c).flushed 6 t = ((cfg0.win 6).blk t).view.read (Elt Ideal)
      (nodeG (V c main_arg1) (V c main_v0) (V c main_arg6) (V c main_v1) (V c main_arg8) (V c main_v2)) := by
  show (cfg0.win 6).cut (grid0.coords t) ((dat0 V c).after 6 t) = _
  rw [after0_6]
  unfold out0_6
  rw [View.canon_unit_zero hz]
  simp only [View.ld_unit_zero (S := S5000x3) hz, View.ld_unit_zero (S := S3x128) hz, View.ld_unit_zero (S := S1x128) hz,
    View.ld_unit_zero (S := S128x128) hz, View.ld_unit_zero (S := S5000x128) hz]
  funext j
  obtain ⟨p, q, rfl⟩ : ∃ (p : Fin 5000) (q : Fin 128), j = ix2 p q := ⟨j 0, j 1, eq_ix2 j⟩
  refine (Pay.node_pay_apply _ _ _ _ _ _ p q).trans ?_
  show Spec.mlpEntry (V c main_arg1 (((cfg0.win 0).blk t).view.emb (ix2 p q : S5000x128.Idx)))
      (fun j : Fin 3 => V c main_v0 (((cfg0.win 1).blk t).view.emb (ix2 p j : S5000x3.Idx)))
      (fun j k => V c main_arg6 (((cfg0.win 2).blk t).view.emb (ix2 j k : S3x128.Idx)))
      (fun k : Fin 128 => V c main_v1 (((cfg0.win 3).blk t).view.emb (ix2 (0 : Fin 1) k : S1x128.Idx)))
      (fun k => V c main_arg8 (((cfg0.win 4).blk t).view.emb (ix2 k q : S128x128.Idx)))
      (V c main_v2 (((cfg0.win 5).blk t).view.emb (ix2 (0 : Fin 1) q : S1x128.Idx)))
    = nodeG (V c main_arg1) (V c main_v0) (V c main_arg6) (V c main_v1) (V c main_arg8) (V c main_v2)
        (((cfg0.win 6).blk t).view.emb (ix2 p q : S5000x128.Idx))
  refine Eq.trans ?_ (congrArg (nodeG (V c main_arg1) (V c main_v0) (V c main_arg6) (V c main_v1) (V c main_arg8) (V c main_v2)) (emb6 t p q)).symm
  show _ = nodeAt (V c main_arg1) (V c main_v0) (V c main_arg6) (V c main_v1) (V c main_arg8) (V c main_v2) (row t p) q
  unfold nodeAt
  exact Spec.mlpEntry_congr (congrArg (V c main_arg1) (emb0 t p q)) (fun j => congrArg (V c main_v0) (emb1 t p j))
    (fun j k => congrArg (V c main_arg6) (emb2 t j k)) (fun k => congrArg (V c main_v1) (emb3 t 0 k))
    (fun k => congrArg (V c main_arg8) (emb4 t k q)) (congrArg (V c main_v2) (emb5 t 0 q))

/-- An index of the result is in point t's block iff each coordinate is in the block's range on its axis. -/
theorem mem_blk (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v3).slice (win0_6.rect t)).set ↔ _
  rw [View.set_slice_whole, Rect.mem_set_unit]
  exact Iff.rfl

/-- The 10 blocks cover the result: row r is in block r / 5000. -/
theorem cover (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- THE NODE RESULT after the region: the node function of the arrays the region finds. -/
theorem final (c : Dev nD) : (dat0 V c).arrAt 6 cfg0.N
    = nodeG (V c main_arg1) (V c main_v0) (V c main_arg6) (V c main_v1) (V c main_arg8) (V c main_v2) :=
  (dat0 V c).arrAt_eq_of_cover 6 _ (fun t _ => flushed_eq V c t) cover

end Cert.KernelIdeal.NodeArr

end
-- ==== Proof.EdgeArr.lean ====
/-
  The edge result, whole. Region 1 runs the edge body at 320 grid points; point t stages rows 5000·t … 5000·t + 4999 of
  the array the result is added to and of the first layer's input (1 to a row: the length of an edge), the two weight matrices and the two
  bias rows whole, and writes back rows 5000·t … of the result. So what point t writes back is block t of ONE function
  of the arrays the region finds: entry (r, c) is `Spec.mlpEntry` of the added entry, row r of the first layer's input,
  the weights, the bias rows and column c. The 320 blocks tile the 1600000 rows (row r is in block r / 5000), so the array
  ends as that function. Stated at ANY entry contents `V`, as the generated frame states the region.
-/
import proofs.«156848_j11003706212368_1_alg».proof.Proof.Gen.KernelIdeal.Frame
import proofs.«156848_j11003706212368_1_alg».proof.Proof.Pay
import Idealize.ShloMosaic.Lib.Pipeline.Value

set_option maxRecDepth 16384

noncomputable section

namespace Cert.KernelIdeal.EdgeArr

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Entry (r, c) of the edge result from the arrays the region reads. -/
def edgeAt (x : FVec Ideal S1600000x128 .f32) (a : FVec Ideal S1600000x1 .f32) (W1 : FVec Ideal S1x128 .f32)
    (b1 : FVec Ideal S1x128 .f32) (W2 : FVec Ideal S128x128 .f32) (b2 : FVec Ideal S1x128 .f32) (r : Fin 1600000) (c : Fin 128) : EReal :=
  Spec.mlpEntry (x (ix2 r c)) (fun j : Fin 1 => a (ix2 r j)) (fun j k => W1 (ix2 j k))
    (fun k : Fin 128 => b1 (ix2 (0 : Fin 1) k)) (fun k => W2 (ix2 k c)) (b2 (ix2 (0 : Fin 1) c))

/-- The edge result as one array. -/
def edgeG (x : FVec Ideal S1600000x128 .f32) (a : FVec Ideal S1600000x1 .f32) (W1 : FVec Ideal S1x128 .f32)
    (b1 : FVec Ideal S1x128 .f32) (W2 : FVec Ideal S128x128 .f32) (b2 : FVec Ideal S1x128 .f32) : FVec Ideal S1600000x128 .f32 :=
  fun i => edgeAt x a W1 b1 W2 b2 ⟨(i 0).val, (i 0).isLt⟩ ⟨(i 1).val, (i 1).isLt⟩

theorem edgeG_ix2 (x : FVec Ideal S1600000x128 .f32) (a : FVec Ideal S1600000x1 .f32) (W1 : FVec Ideal S1x128 .f32)
    (b1 : FVec Ideal S1x128 .f32) (W2 : FVec Ideal S128x128 .f32) (b2 : FVec Ideal S1x128 .f32) (r : Fin 1600000) (c : Fin 128) :
    edgeG x a W1 b1 W2 b2 (ix2 r c) = edgeAt x a W1 b1 W2 b2 r c := rfl

/-- The printed index maps over the 320 points: the row windows move with the result's, the weights and bias rows sit at
    block 0, and the result's block index is the point's, at most 319. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 319 ∧ win1_6.index t (1 : Fin 2) = 0 :=
  (by decide +kernel : ∀ t : Fin grid1.N, _)

/-- Every block of rows is some point's. -/
theorem idx_onto : ∀ q0 : Fin 320, ∃ t : Fin cfg1.N, win1_6.index t = ![q0.val, 0] :=
  (by decide +kernel : ∀ q0 : Fin 320, ∃ t : Fin grid1.N, win1_6.index t = ![q0.val, 0])

/-- Row p of point t's blocks is row 5000·t + p of the arrays. -/
def row (t : Fin cfg1.N) (p : Fin 5000) : Fin 1600000 :=
  ⟨win1_6.index t (0 : Fin 2) * 5000 + p.val, by have := (idx_facts t).2.2.2.2.2.2.2.2.2.2.2.2.1; have := p.isLt; omega⟩

/-! ### Where each window's block sits in its array -/

theorem emb0 (t : Fin cfg1.N) (p : Fin 5000) (q : Fin 128) :
    ((cfg1.win 0).blk t).view.emb (ix2 p q : S5000x128.Idx) = (ix2 (row t p) q : S1600000x128.Idx) := by
  obtain ⟨e0, e1, -⟩ := idx_facts t
  funext a; apply Fin.ext
  match a with
  | ⟨0, _⟩ => show win1_0.index t (0 : Fin 2) * 5000 + 1 * p.val = win1_6.index t (0 : Fin 2) * 5000 + p.val; omega
  | ⟨1, _⟩ => show win1_0.index t (1 : Fin 2) * 128 + 1 * q.val = q.val; omega

theorem emb1 (t : Fin cfg1.N) (p : Fin 5000) (j : Fin 1) :
    ((cfg1.win 1).blk t).view.emb (ix2 p j : S5000x1.Idx) = (ix2 (row t p) j : S1600000x1.Idx) := by
  obtain ⟨-, -, e0, e1, -⟩ := idx_facts t
  funext a; apply Fin.ext
  match a with
  | ⟨0, _⟩ => show win1_1.index t (0 : Fin 2) * 5000 + 1 * p.val = win1_6.index t (0 : Fin 2) * 5000 + p.val; omega
  | ⟨1, _⟩ => show win1_1.index t (1 : Fin 2) * 1 + 1 * j.val = j.val; omega

theorem emb2 (t : Fin cfg1.N) (j : Fin 1) (k : Fin 128) :
    ((cfg1.win 2).blk t).view.emb (ix2 j k : S1x128.Idx) = (ix2 j k : S1x128.Idx) := by
  obtain ⟨-, -, -, -, e0, e1, -⟩ := idx_facts t
  funext a; apply Fin.ext
  match a with
  | ⟨0, _⟩ => show win1_2.index t (0 : Fin 2) * 1 + 1 * j.val = j.val; omega
  | ⟨1, _⟩ => show win1_2.index t (1 : Fin 2) * 128 + 1 * k.val = k.val; omega

theorem emb3 (t : Fin cfg1.N) (u : Fin 1) (k : Fin 128) :
    ((cfg1.win 3).blk t).view.emb (ix2 u k : S1x128.Idx) = (ix2 u k : S1x128.Idx) := by
  obtain ⟨-, -, -, -, -, -, e0, e1, -⟩ := idx_facts t
  funext a; apply Fin.ext
  match a with
  | ⟨0, _⟩ => show win1_3.index t (0 : Fin 2) * 1 + 1 * u.val = u.val; omega
  | ⟨1, _⟩ => show win1_3.index t (1 : Fin 2) * 128 + 1 * k.val = k.val; omega

theorem emb4 (t : Fin cfg1.N) (k : Fin 128) (q : Fin 128) :
    ((cfg1.win 4).blk t).view.emb (ix2 k q : S128x128.Idx) = (ix2 k q : S128x128.Idx) := by
  obtain ⟨-, -, -, -, -, -, -, -, e0, e1, -⟩ := idx_facts t
  funext a; apply Fin.ext
  match a with
  | ⟨0, _⟩ => show win1_4.index t (0 : Fin 2) * 128 + 1 * k.val = k.val; omega
  | ⟨1, _⟩ => show win1_4.index t (1 : Fin 2) * 128 + 1 * q.val = q.val; omega

theorem emb5 (t : Fin cfg1.N) (u : Fin 1) (k : Fin 128) :
    ((cfg1.win 5).blk t).view.emb (ix2 u k : S1x128.Idx) = (ix2 u k : S1x128.Idx) := by
  obtain ⟨-, -, -, -, -, -, -, -, -, -, e0, e1, -⟩ := idx_facts t
  funext a; apply Fin.ext
  match a with
  | ⟨0, _⟩ => show win1_5.index t (0 : Fin 2) * 1 + 1 * u.val = u.val; omega
  | ⟨1, _⟩ => show win1_5.index t (1 : Fin 2) * 128 + 1 * k.val = k.val; omega

theorem emb6 (t : Fin cfg1.N) (p : Fin 5000) (q : Fin 128) :
    ((cfg1.win 6).blk t).view.emb (ix2 p q : S5000x128.Idx) = (ix2 (row t p) q : S1600000x128.Idx) := by
  obtain ⟨-, -, -, -, -, -, -, -, -, -, -, -, -, e1⟩ := idx_facts t
  funext a; apply Fin.ext
  match a with
  | ⟨0, _⟩ => show win1_6.index t (0 : Fin 2) * 5000 + 1 * p.val = win1_6.index t (0 : Fin 2) * 5000 + p.val; omega
  | ⟨1, _⟩ => show win1_6.index t (1 : Fin 2) * 128 + 1 * q.val = q.val; omega

/-! ### What a point writes back, the cover, and the whole array -/

/-- WHAT POINT t WRITES BACK is block t of the edge function of the arrays the region finds. -/
theorem flushed_eq (c : Dev nD) (t : Fin cfg1.N) :
    (dat1 V c).flushed 6 t = ((cfg1.win 6).blk t).view.read (Elt Ideal)
      (edgeG (V c main_arg2) (V c main_v23) (V c main_arg10) (V c main_v24) (V c main_arg12) (V c main_v25)) := by
  show (cfg1.win 6).cut (grid1.coords t) ((dat1 V c).after 6 t) = _
  rw [after1_6]
  unfold out1_6
  rw [View.canon_unit_zero hz]
  simp only [View.ld_unit_zero (S := S5000x1) hz, View.ld_unit_zero (S := S1x128) hz, View.ld_unit_zero (S := S1x128) hz,
    View.ld_unit_zero (S := S128x128) hz, View.ld_unit_zero (S := S5000x128) hz]
  funext j
  obtain ⟨p, q, rfl⟩ : ∃ (p : Fin 5000) (q : Fin 128), j = ix2 p q := ⟨j 0, j 1, eq_ix2 j⟩
  refine (Pay.edge_pay_apply _ _ _ _ _ _ p q).trans ?_
  show Spec.mlpEntry (V c main_arg2 (((cfg1.win 0).blk t).view.emb (ix2 p q : S5000x128.Idx)))
      (fun j : Fin 1 => V c main_v23 (((cfg1.win 1).blk t).view.emb (ix2 p j : S5000x1.Idx)))
      (fun j k => V c main_arg10 (((cfg1.win 2).blk t).view.emb (ix2 j k : S1x128.Idx)))
      (fun k : Fin 128 => V c main_v24 (((cfg1.win 3).blk t).view.emb (ix2 (0 : Fin 1) k : S1x128.Idx)))
      (fun k => V c main_arg12 (((cfg1.win 4).blk t).view.emb (ix2 k q : S128x128.Idx)))
      (V c main_v25 (((cfg1.win 5).blk t).view.emb (ix2 (0 : Fin 1) q : S1x128.Idx)))
    = edgeG (V c main_arg2) (V c main_v23) (V c main_arg10) (V c main_v24) (V c main_arg12) (V c main_v25)
        (((cfg1.win 6).blk t).view.emb (ix2 p q : S5000x128.Idx))
  refine Eq.trans ?_ (congrArg (edgeG (V c main_arg2) (V c main_v23) (V c main_arg10) (V c main_v24) (V c main_arg12) (V c main_v25)) (emb6 t p q)).symm
  show _ = edgeAt (V c main_arg2) (V c main_v23) (V c main_arg10) (V c main_v24) (V c main_arg12) (V c main_v25) (row t p) q
  unfold edgeAt
  exact Spec.mlpEntry_congr (congrArg (V c main_arg2) (emb0 t p q)) (fun j => congrArg (V c main_v23) (emb1 t p j))
    (fun j k => congrArg (V c main_arg10) (emb2 t j k)) (fun k => congrArg (V c main_v24) (emb3 t 0 k))
    (fun k => congrArg (V c main_arg12) (emb4 t k q)) (congrArg (V c main_v25) (emb5 t 0 q))

/-- An index of the result is in point t's block iff each coordinate is in the block's range on its axis. -/
theorem mem_blk (t : Fin cfg1.N) (i : S1600000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v26).slice (win1_6.rect t)).set ↔ _
  rw [View.set_slice_whole, Rect.mem_set_unit]
  exact Iff.rfl

/-- The 320 blocks cover the result: row r is in block r / 5000. -/
theorem cover (i : S1600000x128.Idx) : ∃ t : Fin cfg1.N, (cfg1.win 6).flush t = true ∧ i ∈ ((cfg1.win 6).blk t).view.set := by
  have hi0 : (i 0).val < 1600000 := (i 0).isLt
  have hi1 : (i 1).val < 128 := (i 1).isLt
  obtain ⟨t, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE NODE RESULT after the region: the edge function of the arrays the region finds. -/
theorem final (c : Dev nD) : (dat1 V c).arrAt 6 cfg1.N
    = edgeG (V c main_arg2) (V c main_v23) (V c main_arg10) (V c main_v24) (V c main_arg12) (V c main_v25) :=
  (dat1 V c).arrAt_eq_of_cover 6 _ (fun t _ => flushed_eq V c t) cover

end Cert.KernelIdeal.EdgeArr

end
-- ==== Proof.KernelValue.lean ====
/-
  The idealized kernel's two results as functions of the launch memory. The run ends with the node result at what the
  node region's write-backs leave and the edge result at what the edge region's leave; each region's array is the node
  (edge) function of the arrays the region finds; and what the regions find is read off the host stretches: the
  argument arrays as launched, the masked positions, the edge lengths, the four bias vectors each reshaped to one row.
-/
import proofs.«156848_j11003706212368_1_alg».proof.Proof.KernelRun
import proofs.«156848_j11003706212368_1_alg».proof.Proof.HostSide
import proofs.«156848_j11003706212368_1_alg».proof.Proof.NodeArr
import proofs.«156848_j11003706212368_1_alg».proof.Proof.EdgeArr

set_option maxRecDepth 16384

noncomputable section

namespace Cert.KernelIdeal.KValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The node result of the launch memory: the node function of the features, the masked positions, the first pair of
    weights and biases. -/
def nodeOut (c : Dev nD) : Buf (Elt Ideal) ((c : Thread nD τ).loc main_v3) :=
  NodeArr.nodeG (m ((c : Thread nD τ).loc main_arg1)) (Cert.ReferenceIdeal.Read.val_main_v0 (F := Ideal) (m ((c : Thread nD τ).loc main_arg0)) (m ((c : Thread nD τ).loc main_arg4)) (m ((c : Thread nD τ).loc main_arg5))) (m ((c : Thread nD τ).loc main_arg6))
    (shapeCast S1x128 (m ((c : Thread nD τ).loc main_arg7)) shapeCasts_S128_S1x128) (m ((c : Thread nD τ).loc main_arg8)) (shapeCast S1x128 (m ((c : Thread nD τ).loc main_arg9)) shapeCasts_S128_S1x128)

/-- The edge result of the launch memory: the edge function of the edge attributes, the edge lengths, the second pair of
    weights and biases. -/
def edgeOut (c : Dev nD) : Buf (Elt Ideal) ((c : Thread nD τ).loc main_v26) :=
  EdgeArr.edgeG (m ((c : Thread nD τ).loc main_arg2)) (Cert.ReferenceIdeal.Read.val_main_v30 (F := Ideal) (m ((c : Thread nD τ).loc main_arg0)) (m ((c : Thread nD τ).loc main_arg3)) (m ((c : Thread nD τ).loc main_arg4)) (m ((c : Thread nD τ).loc main_arg5))) (m ((c : Thread nD τ).loc main_arg10))
    (shapeCast S1x128 (m ((c : Thread nD τ).loc main_arg11)) shapeCasts_S128_S1x128) (m ((c : Thread nD τ).loc main_arg12)) (shapeCast S1x128 (m ((c : Thread nD τ).loc main_arg13)) shapeCasts_S128_S1x128)

theorem W7_node (c : Dev nD) : W7 m ρ c (Proc.devRef .tc main_v3) = nodeOut m c := by
  refine (HostSide.W7_v3 m ρ c).trans ((NodeArr.final (V2 m ρ) c).trans ?_)
  rw [HostSide.V2_arg1 m ρ c, HostSide.V2_v0 m ρ c, HostSide.V2_arg6 m ρ c, HostSide.V2_v1 m ρ c, HostSide.V2_arg8 m ρ c,
    HostSide.V2_v2 m ρ c]
  rfl

theorem W7_edge (c : Dev nD) : W7 m ρ c (Proc.devRef .tc main_v26) = edgeOut m c := by
  refine (HostSide.W7_v26 m ρ c).trans ((EdgeArr.final (V6 m ρ) c).trans ?_)
  rw [HostSide.V6_arg2 m ρ c, HostSide.V6_v23 m ρ c, HostSide.V6_arg10 m ρ c, HostSide.V6_v24 m ρ c, HostSide.V6_arg12 m ρ c,
    HostSide.V6_v25 m ρ c]
  rfl

/-- The run, read: both results as functions of the launch memory, the arguments unchanged. -/
theorem run : θ_run defs (onTc (τ := τ) (main (F := Ideal))) ⟨m, fun _ => 0, ρ⟩ (fun r => ∀ c : Dev nD,
      r.2.mem ((c.tc : Thread nD τ).loc main_v3) = nodeOut m c
      ∧ r.2.mem ((c.tc : Thread nD τ).loc main_v26) = edgeOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c).1.trans (W7_node m ρ c), (h c).2.1.trans (W7_edge m ρ c), (h c).2.2⟩)
    (Run.run_named m ρ)

end Cert.KernelIdeal.KValue

end
-- ==== Proof.RefNode.lean ====
/-
  The reference's node result, entry by entry, is the node function of the arrays. The generated
  read-at-an-index lemmas read each host operation at an index: the two matrix products as sums over the contracted
  position, the rectifier as a maximum with the zero word, each bias as the input bias at its column (broadcast twice),
  the residual as the outer sum. Composed index functions are identified with plain coordinates first.
-/
import proofs.«156848_j11003706212368_1_alg».proof.Proof.Gen.ReferenceIdeal.Read
import proofs.«156848_j11003706212368_1_alg».proof.Proof.NodeArr
import Idealize.ShloMosaic.Lib.ValueIdx
import Idealize.ShloMosaic.Lib.ValueLayout

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx

/-! ### The composed index functions of the node side, as coordinates -/

theorem l6 (r : Fin 50000) (c k : Fin 128) : lidx_main_v6 (ix2 r c) k = (ix2 r k : S50000x128.Idx) :=
  funext fun a => Fin.ext (by match a with | ⟨0, _⟩ => rfl | ⟨1, _⟩ => rfl)
theorem r6 (r : Fin 50000) (c k : Fin 128) : ridx_main_v6 (ix2 r c) k = (ix2 k c : S128x128.Idx) :=
  funext fun a => Fin.ext (by match a with | ⟨0, _⟩ => rfl | ⟨1, _⟩ => rfl)
theorem l1 (r : Fin 50000) (k : Fin 128) (j : Fin 3) : lidx_main_v1 (ix2 r k) j = (ix2 r j : S50000x3.Idx) :=
  funext fun a => Fin.ext (by match a with | ⟨0, _⟩ => rfl | ⟨1, _⟩ => rfl)
theorem r1 (r : Fin 50000) (k : Fin 128) (j : Fin 3) : ridx_main_v1 (ix2 r k) j = (ix2 j k : S3x128.Idx) :=
  funext fun a => Fin.ext (by match a with | ⟨0, _⟩ => rfl | ⟨1, _⟩ => rfl)
theorem b3 (r : Fin 50000) (k : Fin 128) : idx_main_v2 (idx_main_v3 (ix2 r k)) = (ix1 k : S128.Idx) :=
  funext fun a => Fin.ext (by match a with | ⟨0, _⟩ => rfl)
theorem b8 (r : Fin 50000) (c : Fin 128) : idx_main_v7 (idx_main_v8 (ix2 r c)) = (ix1 c : S128.Idx) :=
  funext fun a => Fin.ext (by match a with | ⟨0, _⟩ => rfl)

/-- The reference's node result is the node function of its arrays (the bias rows as the kernel stages them: reshaped to
    one row). -/
theorem node_eq (x0 x4 : (⟨S50000x3, .f32⟩ : BufTy).Contents (Elt Ideal)) (x1 : (⟨S50000x128, .f32⟩ : BufTy).Contents (Elt Ideal))
    (x5 : (⟨S50000x1, .i1⟩ : BufTy).Contents (Elt Ideal)) (x6 : (⟨S3x128, .f32⟩ : BufTy).Contents (Elt Ideal))
    (x7 : (⟨S128, .f32⟩ : BufTy).Contents (Elt Ideal)) (x8 : (⟨S128x128, .f32⟩ : BufTy).Contents (Elt Ideal))
    (x9 : (⟨S128, .f32⟩ : BufTy).Contents (Elt Ideal)) :
    val_main_v10 (F := Ideal) x0 x1 x4 x5 x6 x7 x8 x9
      = Cert.KernelIdeal.NodeArr.nodeG x1 (val_main_v0 (F := Ideal) x0 x4 x5) x6
          (shapeCast Cert.KernelIdeal.S1x128 x7 Cert.KernelIdeal.Gen.shapeCasts_S128_S1x128) x8
          (shapeCast Cert.KernelIdeal.S1x128 x9 Cert.KernelIdeal.Gen.shapeCasts_S128_S1x128) := by
  funext i
  obtain ⟨r, c, rfl⟩ : ∃ (r : Fin 50000) (c : Fin 128), i = ix2 r c := ⟨i 0, i 1, eq_ix2 i⟩
  rw [Cert.KernelIdeal.NodeArr.nodeG_ix2]
  unfold Cert.KernelIdeal.NodeArr.nodeAt Spec.mlpEntry
  rw [val_main_v10_apply, val_main_v9_apply, val_main_v6_apply, val_main_v8_apply, val_main_v7_apply]
  simp only [l6, r6, val_main_v5_apply, val_main_v4_apply, val_main_v1_apply, val_main_v3_apply, val_main_v2_apply,
    val_main_call1_v0_apply, val_main_call1_cst_apply, l1, r1, b3, b8, shapeCast_a_1a_apply, Ideal.ofBits_def,
    Ideal.ofBits_zero_f32]
  rfl

end Cert.ReferenceIdeal.RefValue

end
-- ==== Proof.RefEdge.lean ====
/-
  The reference's edge result, entry by entry, is the edge function of the arrays. The generated
  read-at-an-index lemmas read each host operation at an index: the two matrix products as sums over the contracted
  position, the rectifier as a maximum with the zero word, each bias as the input bias at its column (broadcast twice),
  the residual as the outer sum. Composed index functions are identified with plain coordinates first.
-/
import proofs.«156848_j11003706212368_1_alg».proof.Proof.Gen.ReferenceIdeal.Read
import proofs.«156848_j11003706212368_1_alg».proof.Proof.EdgeArr
import Idealize.ShloMosaic.Lib.ValueIdx
import Idealize.ShloMosaic.Lib.ValueLayout

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.ShloMosaic.ValueIdx

/-! ### The composed index functions of the edge side, as coordinates -/

theorem l36 (r : Fin 1600000) (c k : Fin 128) : lidx_main_v36 (ix2 r c) k = (ix2 r k : S1600000x128.Idx) :=
  funext fun a => Fin.ext (by match a with | ⟨0, _⟩ => rfl | ⟨1, _⟩ => rfl)
theorem r36 (r : Fin 1600000) (c k : Fin 128) : ridx_main_v36 (ix2 r c) k = (ix2 k c : S128x128.Idx) :=
  funext fun a => Fin.ext (by match a with | ⟨0, _⟩ => rfl | ⟨1, _⟩ => rfl)
theorem l31 (r : Fin 1600000) (k : Fin 128) (j : Fin 1) : lidx_main_v31 (ix2 r k) j = (ix2 r j : S1600000x1.Idx) :=
  funext fun a => Fin.ext (by match a with | ⟨0, _⟩ => rfl | ⟨1, _⟩ => rfl)
theorem r31 (r : Fin 1600000) (k : Fin 128) (j : Fin 1) : ridx_main_v31 (ix2 r k) j = (ix2 j k : S1x128.Idx) :=
  funext fun a => Fin.ext (by match a with | ⟨0, _⟩ => rfl | ⟨1, _⟩ => rfl)
theorem b33 (r : Fin 1600000) (k : Fin 128) : idx_main_v32 (idx_main_v33 (ix2 r k)) = (ix1 k : S128.Idx) :=
  funext fun a => Fin.ext (by match a with | ⟨0, _⟩ => rfl)
theorem b38 (r : Fin 1600000) (c : Fin 128) : idx_main_v37 (idx_main_v38 (ix2 r c)) = (ix1 c : S128.Idx) :=
  funext fun a => Fin.ext (by match a with | ⟨0, _⟩ => rfl)

/-- One hidden unit of the edge side: the rectified first layer at edge r, unit k. -/
theorem hidden (x0 x4 : (⟨S50000x3, .f32⟩ : BufTy).Contents (Elt Ideal)) (x3 : (⟨S2x1600000, .i32⟩ : BufTy).Contents (Elt Ideal))
    (x5 : (⟨S50000x1, .i1⟩ : BufTy).Contents (Elt Ideal)) (x10 : (⟨S1x128, .f32⟩ : BufTy).Contents (Elt Ideal))
    (x11 : (⟨S128, .f32⟩ : BufTy).Contents (Elt Ideal)) (r : Fin 1600000) (k : Fin 128) :
    val_main_v35 (F := Ideal) x0 x3 x4 x5 x10 x11 (ix2 r k)
      = max ((∑ j : Fin 1, val_main_v30 (F := Ideal) x0 x3 x4 x5 (ix2 r j) * x10 (ix2 j k)) + x11 (ix1 k)) 0 := by
  rw [val_main_v35_apply, val_main_v34_apply, val_main_v31_apply, val_main_v33_apply, val_main_v32_apply, b33,
    val_main_call3_v0_apply, val_main_call3_cst_apply]
  have hs : (∑ j : Fin 1, val_main_v30 (F := Ideal) x0 x3 x4 x5 (lidx_main_v31 (ix2 r k) j) * x10 (ridx_main_v31 (ix2 r k) j))
      = ∑ j : Fin 1, val_main_v30 (F := Ideal) x0 x3 x4 x5 (ix2 r j) * x10 (ix2 j k) :=
    Finset.sum_congr rfl fun j _ => by rw [l31, r31]
  rw [hs]
  show max (_ + _) (Ideal.ofBits .f32 0x00000000#32) = _
  rw [Ideal.ofBits_zero_f32]

/-- The reference's edge result is the edge function of its arrays, the lengths its own length stage. -/
theorem edge_eq (x0 x4 : (⟨S50000x3, .f32⟩ : BufTy).Contents (Elt Ideal)) (x2 : (⟨S1600000x128, .f32⟩ : BufTy).Contents (Elt Ideal))
    (x3 : (⟨S2x1600000, .i32⟩ : BufTy).Contents (Elt Ideal)) (x5 : (⟨S50000x1, .i1⟩ : BufTy).Contents (Elt Ideal))
    (x10 : (⟨S1x128, .f32⟩ : BufTy).Contents (Elt Ideal)) (x11 : (⟨S128, .f32⟩ : BufTy).Contents (Elt Ideal))
    (x12 : (⟨S128x128, .f32⟩ : BufTy).Contents (Elt Ideal)) (x13 : (⟨S128, .f32⟩ : BufTy).Contents (Elt Ideal)) :
    val_main_v40 (F := Ideal) x0 x2 x3 x4 x5 x10 x11 x12 x13
      = Cert.KernelIdeal.EdgeArr.edgeG x2 (val_main_v30 (F := Ideal) x0 x3 x4 x5) x10
          (shapeCast Cert.KernelIdeal.S1x128 x11 Cert.KernelIdeal.Gen.shapeCasts_S128_S1x128) x12
          (shapeCast Cert.KernelIdeal.S1x128 x13 Cert.KernelIdeal.Gen.shapeCasts_S128_S1x128) := by
  funext i
  obtain ⟨r, c, rfl⟩ : ∃ (r : Fin 1600000) (c : Fin 128), i = ix2 r c := ⟨i 0, i 1, eq_ix2 i⟩
  rw [Cert.KernelIdeal.EdgeArr.edgeG_ix2]
  unfold Cert.KernelIdeal.EdgeArr.edgeAt Spec.mlpEntry
  rw [val_main_v40_apply, val_main_v39_apply, val_main_v36_apply, val_main_v38_apply, val_main_v37_apply]
  simp only [l36, r36, b38, shapeCast_a_1a_apply]
  have hs : (∑ k : Fin 128, val_main_v35 (F := Ideal) x0 x3 x4 x5 x10 x11 (ix2 r k) * x12 (ix2 k c))
      = ∑ k : Fin 128, max ((∑ j : Fin 1, val_main_v30 (F := Ideal) x0 x3 x4 x5 (ix2 r j) * x10 (ix2 j k)) + x11 (ix1 k)) 0 * x12 (ix2 k c) :=
    Finset.sum_congr rfl fun k _ => by rw [hidden]
  rw [hs]
  rfl

end Cert.ReferenceIdeal.RefValue

end
-- ==== Proof.lean ====
/-
  The certificate of a two-kernel graph embedding step against its jnp reference, over the extended reals.
  Both programs first replace masked node positions by a last prediction. The NODE result is
      x + ((max (pos · Wp1 + bp1) 0) · Wp2 + bp2)                       over 50000 nodes, 3 coordinates, 128 hidden units,
  and the EDGE result is
      edge_attr + ((max (len · Wd1 + bd1) 0) · Wd2 + bd2)               over 1600000 edges,
  where len is the Euclidean length of the difference of an edge's two endpoint positions (a gather, a difference, a
  row norm). The kernel computes each result in a pallas_call that stages 5000 rows at a time, with bf16 operands for its
  matrix products; the reference computes them with whole-array host operations.
  At the ideal values a change of float format is the identity and a product into a zero accumulator is the plain sum,
  so each stored block is, entry by entry, the same two nested sums with the additions in the same order as the
  reference's entry (`Spec.mlpEntry`): no law of the extended reals is needed, and the precondition is not opened.
  The blocks tile their arrays, so each kernel result is one whole-array function of what its region finds; what the
  regions find is read off the host stretches; and the edge lengths are computed by the SAME host operations in both
  programs, so they are carried as the reference's own stage and never opened.
  The three frames are the generated ones (the reference's is its generated run with the results dropped); the
  idealization rewrote nothing, so `preserves` is `True`.
-/
import proofs.«156848_j11003706212368_1_alg».proof.Defs
import proofs.«156848_j11003706212368_1_alg».proof.Proof.Gen.Kernel
import proofs.«156848_j11003706212368_1_alg».proof.Proof.Gen.Kernel.Skeleton
import proofs.«156848_j11003706212368_1_alg».proof.Proof.Gen.Kernel.Launch
import proofs.«156848_j11003706212368_1_alg».proof.Proof.Gen.Kernel.Points
import proofs.«156848_j11003706212368_1_alg».proof.Proof.Gen.Kernel.Frame
import proofs.«156848_j11003706212368_1_alg».proof.Proof.Gen.KernelIdeal
import proofs.«156848_j11003706212368_1_alg».proof.Proof.Gen.KernelIdeal.Skeleton
import proofs.«156848_j11003706212368_1_alg».proof.Proof.Gen.KernelIdeal.Launch
import proofs.«156848_j11003706212368_1_alg».proof.Proof.Gen.KernelIdeal.Points
import proofs.«156848_j11003706212368_1_alg».proof.Proof.Gen.KernelIdeal.Frame
import proofs.«156848_j11003706212368_1_alg».proof.Proof.Gen.ReferenceIdeal
import proofs.«156848_j11003706212368_1_alg».proof.Proof.Gen.ReferenceIdeal.Run
import proofs.«156848_j11003706212368_1_alg».proof.Proof.Gen.ReferenceIdeal.Read
import proofs.«156848_j11003706212368_1_alg».proof.Proof.Gen.Pre_finite_inputs
import proofs.«156848_j11003706212368_1_alg».proof.Proof.KernelValue
import proofs.«156848_j11003706212368_1_alg».proof.Proof.RefNode
import proofs.«156848_j11003706212368_1_alg».proof.Proof.RefEdge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments, the kernel's node and edge results (each the node / edge function of the
    launch memory) are the reference's: its two result terms are those functions of ITS arguments, entry by entry. -/
theorem algebraic : Cert.algebraic_KernelIdeal_ReferenceIdeal := by
  intro m ρ m' ρ' _ hagree
  refine ⟨fun c => Cert.KernelIdeal.KValue.nodeOut m c, fun c => Cert.KernelIdeal.KValue.edgeOut m c,
    Cert.KernelIdeal.KValue.run m ρ, ?_⟩
  refine (θ_run Cert.ReferenceIdeal.defs _ _).mono (fun r h c => ?_) (Cert.ReferenceIdeal.Value.run (F := Ideal) m' ρ')
  obtain ⟨g0, g1, g2, g3, g4, g5, g6, g7, g8, g9, g10, g11, g12, g13⟩ := hagree c
  refine ⟨(h c).1.trans ?_, (h c).2.1.trans ?_, (h c).2.2⟩
  · rw [Cert.ReferenceIdeal.Read.val_main_v10_eq, Cert.ReferenceIdeal.RefValue.node_eq, g0, g1, g4, g5, g6, g7, g8, g9]
    rfl
  · rw [Cert.ReferenceIdeal.Read.val_main_v40_eq, Cert.ReferenceIdeal.RefValue.edge_eq, g0, g2, g3, g4, g5, g10, g11, g12, g13]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
